-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x2048 .f32) (main_arg5 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x2048x512 .f32) (main_arg1 : FVec F S8 .f32) (main_arg2 : FVec F S2048x8 .f32) (main_arg3 : FVec F S2048 .f32) (main_arg4 : FVec F S512x2048 .f32) (main_arg5 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x2048x8 : Shape := ⟨3, ![8, 2048, 8]⟩
abbrev S8x2048 : Shape := ⟨2, ![8, 2048]⟩
abbrev S2048x512 : Shape := ⟨2, ![2048, 512]⟩
abbrev S1x1024x8 : Shape := ⟨3, ![1, 1024, 8]⟩
abbrev S1x1024x512 : Shape := ⟨3, ![1, 1024, 512]⟩
abbrev S1024x8 : Shape := ⟨2, ![1024, 8]⟩
abbrev S1x8 : Shape := ⟨2, ![1, 8]⟩
abbrev S1024x2048 : Shape := ⟨2, ![1024, 2048]⟩
abbrev S1x2048 : Shape := ⟨2, ![1, 2048]⟩
abbrev S1024x512 : Shape := ⟨2, ![1024, 512]⟩
abbrev S1x512 : Shape := ⟨2, ![1, 512]⟩

abbrev nBuf : Space → Nat
  | .hbm => 12
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x2048x8, .f32⟩
  | .hbm, ⟨7, _⟩ => ⟨S8x2048, .f32⟩
  | .hbm, ⟨8, _⟩ => ⟨S8x2048, .bf16⟩
  | .hbm, ⟨9, _⟩ => ⟨S2048x512, .f32⟩
  | .hbm, ⟨10, _⟩ => ⟨S2048x512, .bf16⟩
  | .hbm, ⟨11, _⟩ => ⟨S8x2048x512, .f32⟩
  | .local _ .vmem, ⟨0, _⟩ => ⟨S1x1024x8, .f32⟩
  | .local _ .vmem, ⟨1, _⟩ => ⟨S1x1024x8, .f32⟩
  | .local _ .vmem, ⟨2, _⟩ => ⟨S8, .f32⟩
  | .local _ .vmem, ⟨3, _⟩ => ⟨S8x2048, .bf16⟩
  | .local _ .vmem, ⟨4, _⟩ => ⟨S2048, .f32⟩
  | .local _ .vmem, ⟨5, _⟩ => ⟨S2048x512, .bf16⟩
  | .local _ .vmem, ⟨6, _⟩ => ⟨S512, .f32⟩
  | .local _ .vmem, ⟨7, _⟩ => ⟨S1x1024x512, .f32⟩
  | .local _ .vmem, ⟨8, _⟩ => ⟨S1x1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S8x2048x512_S8x2048x8_0_0_0 : S8x2048x512.Slices ![0, 0, 0] S8x2048x8
  transposes_S2048x8_S8x2048_1_0 : S2048x8.Transposes [1, 0] S8x2048
  bitsLt_bf16_f32 : FTy.bits .bf16 < FTy.bits .f32
  transposes_S512x2048_S2048x512_1_0 : S512x2048.Transposes [1, 0] S2048x512
  inb_S8_S8_0 : ∀ a, (![0] : Fin 1 → Nat) a + S8.size a ≤ S8.size a
  h_S8 : 0 < S8.numel
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  shapeCasts_S8_S1x8 : S8.ShapeCasts S1x8
  broadcasts_S1x8_S1024x8 : S1x8.Broadcasts S1024x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x8_S8x2048_S1024x2048_1_0_0_1_n_n_wf : DotDims.WF S1024x8 S8x2048 S1024x2048 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x8.size a ≤ S8x2048x8.size a
  hwx0_0 : ∀ i : grid0.Coords, EltTy.bits .f32 = 32 ∨ (Rect.block (s := S8x2048x8) S1x1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .bf16 = 32 ∨ (Rect.block (s := S8x2048) S8x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S8x2048x512.size a
  hwx0_6 : ∀ i : grid0.Coords, EltTy.bits .f32 = 32 ∨ (Rect.block (s := S8x2048x512) S1x1024x512.size (cc0_transform_6 i) (hinb0_6 i)).WholeWords (EltTy.packing .f32)

variable [Facts₀]

def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S1x1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8 : Shape := ⟨1, ![8]⟩
abbrev S2048x8 : Shape := ⟨2, ![2048, 8]⟩
abbrev S2048 : Shape := ⟨1, ![2048]⟩
abbrev S512x2048 : Shape := ⟨2, ![512, 2048]⟩
abbrev S512 : Shape := ⟨1, ![512]⟩
abbrev S8x2048x8 : Shape := ⟨3, ![8, 2048, 8]⟩
abbrev S1x1x8 : Shape := ⟨3, ![1, 1, 8]⟩
abbrev S8x2048x2048 : Shape := ⟨3, ![8, 2048, 2048]⟩
abbrev S1x1x2048 : Shape := ⟨3, ![1, 1, 2048]⟩
abbrev S_ : Shape := ⟨0, ![]⟩
abbrev S1x1x512 : Shape := ⟨3, ![1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8, .f32⟩
  | .hbm, ⟨2, _⟩ => ⟨S2048x8, .f32⟩
  | .hbm, ⟨3, _⟩ => ⟨S2048, .f32⟩
  | .hbm, ⟨4, _⟩ => ⟨S512x2048, .f32⟩
  | .hbm, ⟨5, _⟩ => ⟨S512, .f32⟩
  | .hbm, ⟨6, _⟩ => ⟨S8x2048x8, .f32⟩
  | .hbm, ⟨7, _⟩ => ⟨S8x2048x8, .f32⟩
  | .hbm, ⟨8, _⟩ => ⟨S8, .f32⟩
  | .hbm, ⟨9, _⟩ => ⟨S1x1x8, .f32⟩
  | .hbm, ⟨10, _⟩ => ⟨S8x2048x8, .f32⟩
  | .hbm, ⟨11, _⟩ => ⟨S8x2048x8, .f32⟩
  | .hbm, ⟨12, _⟩ => ⟨S8x2048x2048, .f32⟩
  | .hbm, ⟨13, _⟩ => ⟨S1x1x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x512, .f32⟩
  | .hbm, ⟨20, _⟩ => ⟨S1x1x512, .f32⟩
  | .hbm, ⟨21, _⟩ => ⟨S8x2048x512, .f32⟩
  | .hbm, ⟨22, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x2048x512_S8x2048x8_0_0_0 : S8x2048x512.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  dot_S8x2048x8_S2048x8_S8x2048x2048_2_1_01_0_n_n_wf : DotDims.WF S8x2048x8 S2048x8 S8x2048x2048 [2] [1] [0, 1] [0] [] []
  dot_S8x2048x2048_S512x2048_S8x2048x512_2_1_01_0_n_n_wf : DotDims.WF S8x2048x2048 S512x2048 S8x2048x512 [2] [1] [0, 1] [0] [] []

variable [Facts₀]

def dot_S8x2048x8_S2048x8_S8x2048x2048_2_1_01_0_n_n : DotDims S8x2048x8 S2048x8 S8x2048x2048 where
  lhsContracting := [2]
  rhsContracting := [1]
  lhsNonContracting := [0, 1]
  rhsNonContracting := [0]
  lhsBatch := []
  rhsBatch := []
  wf := dot_S8x2048x8_S2048x8_S8x2048x2048_2_1_01_0_n_n_wf
def dot_S8x2048x2048_S512x2048_S8x2048x512_2_1_01_0_n_n : DotDims S8x2048x2048 S512x2048 S8x2048x512 where
  lhsContracting := [2]
  rhsContracting := [1]
  lhsNonContracting := [0, 1]
  rhsNonContracting := [0]
  lhsBatch := []
  rhsBatch := []
  wf := dot_S8x2048x2048_S512x2048_S8x2048x512_2_1_01_0_n_n_wf

class Facts : Prop extends Facts₀ where

variable [Facts]
-- ==== Proof.FeedForward.lean ====
/-
  The function both programs compute, on the extended reals.

  A token is a batch entry b < 8 at a position s < 2048, carrying 512 input coordinates of which only the first eight
  enter. Its eight features are  cos x[b, s, q] · cos θ[q].  Its 2048 hidden units are the rectified affine images of the
  features,  max (∑ q, feature q · W1[f, q] + b1[f], 0),  and its 512 outputs the affine images of the hidden units,
  ∑ f, hidden f · W2[e, f] + b2[e].

  Both sums are written with the activation on the left and the weight on the right, and with the weight matrices read
  as given (rows indexed by the unit they feed): that is how the reference contracts, and the kernel, which is handed
  the transposed matrices, reads the same entries. No law of arithmetic is needed to join the two sides, so nothing
  here asks the inputs to be finite.
-/
import Idealize.ShloMosaic.Lib.ValueIdx

noncomputable section

open scoped BigOperators

namespace Cert.FeedForward

open Idealize.ShloMosaic Idealize.ShloMosaic.ValueIdx

/-- Feature q of the token (b, s): the cosine of its q-th input coordinate times the cosine of the q-th angle. -/
def feature (x : FVec Ideal ⟨3, ![8, 2048, 512]⟩ .f32) (θ : FVec Ideal ⟨1, ![8]⟩ .f32)
    (b : Fin 8) (s : Fin 2048) (q : Fin 8) : EReal :=
  Ideal.cos (x (ix3 b s (Fin.castLE (by decide) q))) * Ideal.cos (θ (ix1 q))

/-- Hidden unit f of the token (b, s): the affine image of its features under row f of W1 and b1[f], cut off below at
    the value of the zero word. -/
def hidden (x : FVec Ideal ⟨3, ![8, 2048, 512]⟩ .f32) (θ : FVec Ideal ⟨1, ![8]⟩ .f32)
    (W1 : FVec Ideal ⟨2, ![2048, 8]⟩ .f32) (b1 : FVec Ideal ⟨1, ![2048]⟩ .f32)
    (b : Fin 8) (s : Fin 2048) (f : Fin 2048) : EReal :=
  max ((∑ q : Fin 8, feature x θ b s q * W1 (ix2 f q)) + b1 (ix1 f)) (Ideal.ofBits .f32 0x00000000#32)

/-- Output e of the token (b, s): the affine image of its hidden units under row e of W2 and b2[e]. -/
def output (x : FVec Ideal ⟨3, ![8, 2048, 512]⟩ .f32) (θ : FVec Ideal ⟨1, ![8]⟩ .f32)
    (W1 : FVec Ideal ⟨2, ![2048, 8]⟩ .f32) (b1 : FVec Ideal ⟨1, ![2048]⟩ .f32)
    (W2 : FVec Ideal ⟨2, ![512, 2048]⟩ .f32) (b2 : FVec Ideal ⟨1, ![512]⟩ .f32)
    (b : Fin 8) (s : Fin 2048) (e : Fin 512) : EReal :=
  (∑ f : Fin 2048, hidden x θ W1 b1 b s f * W2 (ix2 e f)) + b2 (ix1 e)

/-- The whole result array: entry (b, s, e) is output e of the token (b, s). -/
def result (x : FVec Ideal ⟨3, ![8, 2048, 512]⟩ .f32) (θ : FVec Ideal ⟨1, ![8]⟩ .f32)
    (W1 : FVec Ideal ⟨2, ![2048, 8]⟩ .f32) (b1 : FVec Ideal ⟨1, ![2048]⟩ .f32)
    (W2 : FVec Ideal ⟨2, ![512, 2048]⟩ .f32) (b2 : FVec Ideal ⟨1, ![512]⟩ .f32) :
    FVec Ideal ⟨3, ![8, 2048, 512]⟩ .f32 :=
  fun i => output x θ W1 b1 W2 b2 (i 0) (i 1) (i 2)

theorem result_apply (x : FVec Ideal ⟨3, ![8, 2048, 512]⟩ .f32) (θ : FVec Ideal ⟨1, ![8]⟩ .f32)
    (W1 : FVec Ideal ⟨2, ![2048, 8]⟩ .f32) (b1 : FVec Ideal ⟨1, ![2048]⟩ .f32)
    (W2 : FVec Ideal ⟨2, ![512, 2048]⟩ .f32) (b2 : FVec Ideal ⟨1, ![512]⟩ .f32)
    (b : Fin 8) (s : Fin 2048) (e : Fin 512) :
    result x θ W1 b1 W2 b2 (ix3 b s e) = output x θ W1 b1 W2 b2 b s e := rfl

end Cert.FeedForward

end
-- ==== Proof.ReferenceValue.lean ====
/-
  The reference, read one entry at a time, is the feed-forward function.

  Its program slices the first eight coordinates off every token, takes cosines of them and of the angles, multiplies
  (the angles broadcast over tokens), contracts the eight features against the rows of W1, adds b1 (broadcast over
  tokens), takes the maximum with a broadcast zero, contracts the 2048 hidden units against the rows of W2 and adds b2.
  Each stage read at an index names one entry of each operand, or a sum over the contracted position; composing the
  index maps of the slice and of the broadcasts gives the plain coordinates (b, s, q), (f, q), (e, f), (q), (f), (e).
-/
import proofs.«152407_j65481071399183_1_alg».proof.Proof.Gen.ReferenceIdeal.Read
import proofs.«152407_j65481071399183_1_alg».proof.Proof.FeedForward

noncomputable section

open scoped BigOperators

namespace Cert.FeedForward.Reference

open Cert.ReferenceIdeal Cert.ReferenceIdeal.Read Idealize.ShloMosaic Idealize.ShloMosaic.ValueIdx

variable (x : FVec Ideal S8x2048x512 .f32) (θ : FVec Ideal S8 .f32) (W1 : FVec Ideal S2048x8 .f32)
  (b1 : FVec Ideal S2048 .f32) (W2 : FVec Ideal S512x2048 .f32) (b2 : FVec Ideal S512 .f32)

/-! ## The composed index maps are the plain coordinates -/

/-- The slice keeps a token's first eight coordinates where they were. -/
theorem slice_idx (b : Fin 8) (s : Fin 2048) (q : Fin 8) :
    idx_main_v0 (ix3 b s q) = ix3 b s (Fin.castLE (by decide) q) :=
  funext fun a => Fin.ext (by match a with | ⟨0, _⟩ => rfl | ⟨1, _⟩ => rfl | ⟨2, _⟩ => rfl)

/-- The angles, broadcast over tokens, are read at the feature's position. -/
theorem angle_idx (b : Fin 8) (s : Fin 2048) (q : Fin 8) :
    idx_main_v3 (idx_main_v4 (ix3 b s q)) = ix1 q :=
  funext fun a => Fin.ext (by match a with | ⟨0, _⟩ => rfl)

/-- The first bias, broadcast over tokens, is read at the hidden unit. -/
theorem bias1_idx (b : Fin 8) (s : Fin 2048) (f : Fin 2048) :
    idx_main_v7 (idx_main_v8 (ix3 b s f)) = ix1 f :=
  funext fun a => Fin.ext (by match a with | ⟨0, _⟩ => rfl)

/-- The second bias, broadcast over tokens, is read at the output coordinate. -/
theorem bias2_idx (b : Fin 8) (s : Fin 2048) (e : Fin 512) :
    idx_main_v12 (idx_main_v13 (ix3 b s e)) = ix1 e :=
  funext fun a => Fin.ext (by match a with | ⟨0, _⟩ => rfl)

/-- The first contraction reads the token's feature q … -/
theorem contr1_lhs (b : Fin 8) (s : Fin 2048) (f : Fin 2048) (q : Fin 8) :
    lidx_main_v6 (ix3 b s f) q = ix3 b s q :=
  funext fun a => Fin.ext (by match a with | ⟨0, _⟩ => rfl | ⟨1, _⟩ => rfl | ⟨2, _⟩ => rfl)

/-- … against entry (f, q) of W1. -/
theorem contr1_rhs (b : Fin 8) (s : Fin 2048) (f : Fin 2048) (q : Fin 8) :
    ridx_main_v6 (ix3 b s f) q = ix2 f q :=
  funext fun a => Fin.ext (by match a with | ⟨0, _⟩ => rfl | ⟨1, _⟩ => rfl)

/-- The second contraction reads the token's hidden unit f … -/
theorem contr2_lhs (b : Fin 8) (s : Fin 2048) (e : Fin 512) (f : Fin 2048) :
    lidx_main_v11 (ix3 b s e) f = ix3 b s f :=
  funext fun a => Fin.ext (by match a with | ⟨0, _⟩ => rfl | ⟨1, _⟩ => rfl | ⟨2, _⟩ => rfl)

/-- … against entry (e, f) of W2. -/
theorem contr2_rhs (b : Fin 8) (s : Fin 2048) (e : Fin 512) (f : Fin 2048) :
    ridx_main_v11 (ix3 b s e) f = ix2 e f :=
  funext fun a => Fin.ext (by match a with | ⟨0, _⟩ => rfl | ⟨1, _⟩ => rfl)

/-! ## The stages -/

/-- The product of cosines at (b, s, q) is the token's feature q. -/
theorem feature_eq (b : Fin 8) (s : Fin 2048) (q : Fin 8) :
    val_main_v5 (F := Ideal) x θ (ix3 b s q) = feature x θ b s q := by
  rw [val_main_v5_apply, val_main_v1_apply, val_main_v0_apply, val_main_v4_apply, val_main_v3_apply,
    val_main_v2_apply, slice_idx, angle_idx]
  rfl

/-- The rectified stage at (b, s, f) is the token's hidden unit f. -/
theorem hidden_eq (b : Fin 8) (s : Fin 2048) (f : Fin 2048) :
    val_main_v10 (F := Ideal) x θ W1 b1 (ix3 b s f) = hidden x θ W1 b1 b s f := by
  rw [val_main_v10_apply, val_main_v9_apply, val_main_v6_apply, val_main_v8_apply, val_main_v7_apply,
    val_main_call0_v0_apply, val_main_call0_cst_apply, bias1_idx]
  simp only [contr1_lhs, contr1_rhs, feature_eq]
  rfl

/-- The reference's result array is the feed-forward function of its arguments. -/
theorem result_eq : val_main_v14 (F := Ideal) x θ W1 b1 W2 b2 = result x θ W1 b1 W2 b2 := by
  funext i
  obtain ⟨b, s, e, rfl⟩ : ∃ (b : Fin 8) (s : Fin 2048) (e : Fin 512), i = ix3 b s e := ⟨i 0, i 1, i 2, eq_ix3 i⟩
  rw [result_apply, val_main_v14_apply, val_main_v11_apply, val_main_v13_apply, val_main_v12_apply, bias2_idx]
  simp only [contr2_lhs, contr2_rhs, hidden_eq]
  rfl

end Cert.FeedForward.Reference

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelBody.lean ====
/-
  One grid point of the kernel, read one entry at a time.

  At a grid point the body holds a block of 1024 tokens (their first eight coordinates), the eight angles, the two
  weight matrices already transposed (8 × 2048 and 2048 × 512) and the two biases. It forms the features
  cos x · cos θ (the angles as one row repeated over the tokens), multiplies by the first matrix into a zero accumulator,
  adds the first bias as a repeated row, takes the maximum with zero, multiplies by the second matrix into a zero
  accumulator, adds the second bias as a repeated row, and stores the 1024 × 512 result as a block with a leading unit axis.
  The two narrowings to the 16-bit format change no value on the extended reals. So row r, column e of the stored block is
    ∑ f, max (∑ q, (cos x[0, r, q] · cos θ[q]) · A[q, f] + b1[f], 0) · B[f, e] + b2[e]
  with A, B the transposed matrices as the body loads them.
-/
import proofs.«152407_j65481071399183_1_alg».proof.Proof.Gen.KernelIdeal.Skeleton
import proofs.«152407_j65481071399183_1_alg».proof.Proof.LibPlainDot
import Idealize.ShloMosaic.Lib.ValueLayout

noncomputable section

open scoped BigOperators

namespace Cert.FeedForward.Body

open Cert.KernelIdeal Cert.KernelIdeal.Gen Idealize.ShloMosaic Idealize.ShloMosaic.ValueIdx

/-- The first product, tokens' features against the transposed first matrix, at row r and hidden unit f. -/
theorem product1_apply (l : FVec Ideal S1024x8 .bf16) (w : FVec Ideal S8x2048 .bf16) (r : Fin 1024) (f : Fin 2048) :
    matmul dot_S1024x8_S8x2048_S1024x2048_1_0_0_1_n_n none l w (constant S1024x2048 .f32 0x00000000#32) (ix2 r f)
      = ∑ q : Fin 8, l (ix2 r q) * w (ix2 q f) :=
  Cert.PlainDot.matmul_zero_apply ⟨rfl, rfl, rfl, rfl, rfl, rfl⟩ rfl rfl none l w r f

/-- The second product, hidden units against the transposed second matrix, at row r and output e. -/
theorem product2_apply (l : FVec Ideal S1024x2048 .bf16) (w : FVec Ideal S2048x512 .bf16) (r : Fin 1024) (e : Fin 512) :
    matmul dot_S1024x2048_S2048x512_S1024x512_1_0_0_1_n_n none l w (constant S1024x512 .f32 0x00000000#32) (ix2 r e)
      = ∑ f : Fin 2048, l (ix2 r f) * w (ix2 f e) :=
  Cert.PlainDot.matmul_zero_apply ⟨rfl, rfl, rfl, rfl, rfl, rfl⟩ rfl rfl none l w r e

/-- Feature q of the block's token r: the token's block drops its unit axis, the angles' cosines are one row repeated. -/
theorem features_apply (θ : FVec Ideal S8 .f32) (xb : FVec Ideal S1x1024x8 .f32) (r : Fin 1024) (q : Fin 8) :
    mulf (cos (shapeCast S1024x8 xb shapeCasts_S1x1024x8_S1024x8))
        (broadcastTo S1024x8 (shapeCast S1x8 (cos θ) shapeCasts_S8_S1x8) broadcasts_S1x8_S1024x8) (ix2 r q)
      = Ideal.cos (xb (ix3 0 r q)) * Ideal.cos (θ (ix1 q)) := by
  rw [mulf_apply, broadcastTo_1b_ab_apply, shapeCast_a_1a_apply]
  show Ideal.cos (shapeCast S1024x8 xb shapeCasts_S1x1024x8_S1024x8 (ix2 r q)) * Ideal.cos (θ (ix1 q)) = _
  rw [shapeCast_1ab_ab_apply]

/-- The first bias as a row repeated over the block's tokens. -/
theorem bias1_apply (b1 : FVec Ideal S2048 .f32) (r : Fin 1024) (f : Fin 2048) :
    broadcastTo S1024x2048 (shapeCast S1x2048 b1 shapeCasts_S2048_S1x2048) broadcasts_S1x2048_S1024x2048 (ix2 r f) = b1 (ix1 f) := by
  rw [broadcastTo_1b_ab_apply, shapeCast_a_1a_apply]

/-- The second bias as a row repeated over the block's tokens. -/
theorem bias2_apply (b2 : FVec Ideal S512 .f32) (r : Fin 1024) (e : Fin 512) :
    broadcastTo S1024x512 (shapeCast S1x512 b2 shapeCasts_S512_S1x512) broadcasts_S1x512_S1024x512 (ix2 r e) = b2 (ix1 e) := by
  rw [broadcastTo_1b_ab_apply, shapeCast_a_1a_apply]

/-- What the body stores, at row r and column e of its block (the block's leading coordinate u is the unit axis). -/
theorem stored_apply (θ : FVec Ideal S8 .f32) (xb : FVec Ideal S1x1024x8 .f32) (A : FVec Ideal S8x2048 .bf16)
    (b1 : FVec Ideal S2048 .f32) (B : FVec Ideal S2048x512 .bf16) (b2 : FVec Ideal S512 .f32)
    (u : Fin 1) (r : Fin 1024) (e : Fin 512) :
    k0_pay1 (F := Ideal) θ xb A b1 B b2 (ix3 u r e)
      = (∑ f : Fin 2048,
          max ((∑ q : Fin 8, (Ideal.cos (xb (ix3 0 r q)) * Ideal.cos (θ (ix1 q))) * A (ix2 q f)) + b1 (ix1 f))
              (Ideal.ofBits .f32 0x00000000#32) * B (ix2 f e))
        + b2 (ix1 e) := by
  simp only [k0_pay1]
  rw [shapeCast_ab_1ab_apply, addf_apply, product2_apply, bias2_apply]
  simp only [truncf_apply, maximumf_apply, addf_apply, broadcast_apply, product1_apply, bias1_apply, features_apply,
    shapeCast_self]
  rfl

end Cert.FeedForward.Body

end
-- ==== Proof.KernelValue.lean ====
/-
  The kernel's result array is the feed-forward function of its arguments.

  The grid has 8 × 2 points. Point (b, h) works on tokens 1024·h … 1024·h + 1023 of batch entry b: its token block is
  block (b, h, 0) of the sliced input, its output block is block (b, h, 0) of the result, and every other operand is the
  one block of its whole array. Before the grid runs, the host slices the first eight coordinates off every token and
  transposes the two weight matrices (the narrowing that follows each transpose changes no value on the extended reals),
  so entry (q, f) of the first matrix the body loads is W1[f, q] and entry (f, e) of the second is W2[e, f].
  Row r, column e of what point (b, h) writes back is therefore output e of the token (b, 1024·h + r), which is the
  entry of the feed-forward function under that place of the block; the sixteen blocks tile the result array.
-/
import proofs.«152407_j65481071399183_1_alg».proof.Proof.Gen.KernelIdeal.Value
import proofs.«152407_j65481071399183_1_alg».proof.Proof.KernelBody
import proofs.«152407_j65481071399183_1_alg».proof.Proof.FeedForward
import Idealize.ShloMosaic.Lib.StableHlo.Run
import Idealize.ShloMosaic.Lib.ValueLayout

set_option maxRecDepth 16384

noncomputable section

open scoped BigOperators

namespace Cert.FeedForward.Kernel

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The feed-forward function of the argument arrays as launched on core c. -/
abbrev target (c : Dev nD) : FVec Ideal S8x2048x512 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## What the host prepared -/

/-- The sliced input, as the grid finds it. -/
theorem sliced_eq (c : Dev nD) : (V m c main_v0 : S8x2048x8.Idx → EReal)
    = extractStridedSlice S8x2048x8 ![0, 0, 0] (m ((c : Thread nD τ).loc main_arg0)) slices_S8x2048x512_S8x2048x8_0_0_0 := by
  dsimp only [Gen.V, Gen.hostOps0]; after_results <;> rfl

/-- The first weight matrix, transposed and narrowed, as the grid finds it. -/
theorem weights1_eq (c : Dev nD) : (V m c main_v2 : S8x2048.Idx → EReal)
    = truncf (F := Ideal) .bf16 (transpose S8x2048 [1, 0] (m ((c : Thread nD τ).loc main_arg2)) transposes_S2048x8_S8x2048_1_0) bitsLt_bf16_f32 := by
  dsimp only [Gen.V, Gen.hostOps0]; after_results <;> rfl

/-- The second weight matrix, transposed and narrowed, as the grid finds it. -/
theorem weights2_eq (c : Dev nD) : (V m c main_v4 : S2048x512.Idx → EReal)
    = truncf (F := Ideal) .bf16 (transpose S2048x512 [1, 0] (m ((c : Thread nD τ).loc main_arg4)) transposes_S512x2048_S2048x512_1_0) bitsLt_bf16_f32 := by
  dsimp only [Gen.V, Gen.hostOps0]; after_results <;> rfl

/-- Coordinate q of token (b, s) of the sliced input is coordinate q of that token of the input. -/
theorem sliced_apply (c : Dev nD) (b : Fin 8) (s : Fin 2048) (q : Fin 8) :
    (V m c main_v0 : S8x2048x8.Idx → EReal) (ix3 b s q) = m ((c : Thread nD τ).loc main_arg0) (ix3 b s (Fin.castLE (by decide) q)) := by
  rw [sliced_eq]
  exact extractStridedSlice_apply _ _ _ _ _ fun a => match a with
    | ⟨0, _⟩ => by show b.val = 0 + b.val; omega
    | ⟨1, _⟩ => by show s.val = 0 + s.val; omega
    | ⟨2, _⟩ => by show q.val = 0 + q.val; omega

/-- Entry (q, f) of the first matrix as the body loads it is W1[f, q]. -/
theorem weights1_apply (c : Dev nD) (q : Fin 8) (f : Fin 2048) :
    (V m c main_v2 : S8x2048.Idx → EReal) (ix2 q f) = m ((c : Thread nD τ).loc main_arg2) (ix2 f q) := by
  rw [weights1_eq, truncf_apply]
  exact transpose_ix2_apply _ _ q f

/-- Entry (f, e) of the second matrix as the body loads it is W2[e, f]. -/
theorem weights2_apply (c : Dev nD) (f : Fin 2048) (e : Fin 512) :
    (V m c main_v4 : S2048x512.Idx → EReal) (ix2 f e) = m ((c : Thread nD τ).loc main_arg4) (ix2 e f) := by
  rw [weights2_eq, truncf_apply]
  exact transpose_ix2_apply _ _ f e

/-! ## The grid -/

/-- The printed index maps over the sixteen points: the token block moves with the output block on the batch and
    position axes; every other operand stays at its one block; the output's block indices stay in range. -/
theorem grid_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) ≤ 7 ∧ win0_6.index t (1 : Fin 3) ≤ 1 ∧ win0_6.index t (2 : Fin 3) = 0 :=
  (by decide +kernel : ∀ t : Fin grid0.N, _)

/-- Every pair (batch entry, half of the positions) is some point's output block. -/
theorem grid_onto : ∀ (b : Fin 8) (h : Fin 2), ∃ t : Fin cfg0.N, win0_6.index t = ![b.val, h.val, 0] :=
  (by decide +kernel : ∀ (b : Fin 8) (h : Fin 2), ∃ t : Fin grid0.N, win0_6.index t = ![b.val, h.val, 0])

/-! ## Each operand's block, as entries of its array -/

/-- The token block at point t: row r is token (b, 1024·h + r) for the point's output block (b, h). -/
theorem tokens_apply (c : Dev nD) (t : Fin cfg0.N) (u : Fin 1) (r : Fin 1024) (q : Fin 8) (b : Fin 8) (s : Fin 2048)
    (hb : b.val = win0_6.index t (0 : Fin 3)) (hs : s.val = win0_6.index t (1 : Fin 3) * 1024 + r.val) :
    (iblk m c 0 t : S1x1024x8.Idx → EReal) (ix3 u r q) = m ((c : Thread nD τ).loc main_arg0) (ix3 b s (Fin.castLE (by decide) q)) := by
  rw [← sliced_apply m c b s q]
  unfold iblk
  rw [View.read_apply]
  show V m c main_v0 _ = V m c main_v0 _
  obtain ⟨e0, e1, e2, -⟩ := grid_facts t
  have hu : u.val = 0 := by omega
  refine congrArg _ (funext fun a => Fin.ext ?_)
  match a with
  | ⟨0, _⟩ => show win0_0.index t (0 : Fin 3) * 1 + 1 * u.val = b.val; omega
  | ⟨1, _⟩ => show win0_0.index t (1 : Fin 3) * 1024 + 1 * r.val = s.val; omega
  | ⟨2, _⟩ => show win0_0.index t (2 : Fin 3) * 8 + 1 * q.val = q.val; omega

/-- The angles' block is the angles. -/
theorem angles_apply (c : Dev nD) (t : Fin cfg0.N) (q : Fin 8) :
    (iblk m c 1 t : S8.Idx → EReal) (ix1 q) = m ((c : Thread nD τ).loc main_arg1) (ix1 q) := by
  rw [← V_main_arg1 m c]
  unfold iblk
  rw [View.read_apply]
  show V m c main_arg1 _ = V m c main_arg1 _
  obtain ⟨-, -, -, e3, -⟩ := grid_facts t
  refine congrArg _ (funext fun a => Fin.ext ?_)
  match a with
  | ⟨0, _⟩ => show win0_1.index t (0 : Fin 1) * 8 + 1 * q.val = q.val; omega

/-- The first matrix's block is the transposed matrix: entry (q, f) is W1[f, q]. -/
theorem matrix1_apply (c : Dev nD) (t : Fin cfg0.N) (q : Fin 8) (f : Fin 2048) :
    (iblk m c 2 t : S8x2048.Idx → EReal) (ix2 q f) = m ((c : Thread nD τ).loc main_arg2) (ix2 f q) := by
  rw [← weights1_apply m c q f]
  unfold iblk
  rw [View.read_apply]
  show V m c main_v2 _ = V m c main_v2 _
  obtain ⟨-, -, -, -, e4, e5, -⟩ := grid_facts t
  refine congrArg _ (funext fun a => Fin.ext ?_)
  match a with
  | ⟨0, _⟩ => show win0_2.index t (0 : Fin 2) * 8 + 1 * q.val = q.val; omega
  | ⟨1, _⟩ => show win0_2.index t (1 : Fin 2) * 2048 + 1 * f.val = f.val; omega

/-- The first bias's block is the bias. -/
theorem bias1_apply (c : Dev nD) (t : Fin cfg0.N) (f : Fin 2048) :
    (iblk m c 3 t : S2048.Idx → EReal) (ix1 f) = m ((c : Thread nD τ).loc main_arg3) (ix1 f) := by
  rw [← V_main_arg3 m c]
  unfold iblk
  rw [View.read_apply]
  show V m c main_arg3 _ = V m c main_arg3 _
  obtain ⟨-, -, -, -, -, -, e6, -⟩ := grid_facts t
  refine congrArg _ (funext fun a => Fin.ext ?_)
  match a with
  | ⟨0, _⟩ => show win0_3.index t (0 : Fin 1) * 2048 + 1 * f.val = f.val; omega

/-- The second matrix's block is the transposed matrix: entry (f, e) is W2[e, f]. -/
theorem matrix2_apply (c : Dev nD) (t : Fin cfg0.N) (f : Fin 2048) (e : Fin 512) :
    (iblk m c 4 t : S2048x512.Idx → EReal) (ix2 f e) = m ((c : Thread nD τ).loc main_arg4) (ix2 e f) := by
  rw [← weights2_apply m c f e]
  unfold iblk
  rw [View.read_apply]
  show V m c main_v4 _ = V m c main_v4 _
  obtain ⟨-, -, -, -, -, -, -, e7, e8, -⟩ := grid_facts t
  refine congrArg _ (funext fun a => Fin.ext ?_)
  match a with
  | ⟨0, _⟩ => show win0_4.index t (0 : Fin 2) * 2048 + 1 * f.val = f.val; omega
  | ⟨1, _⟩ => show win0_4.index t (1 : Fin 2) * 512 + 1 * e.val = e.val; omega

/-- The second bias's block is the bias. -/
theorem bias2_apply (c : Dev nD) (t : Fin cfg0.N) (e : Fin 512) :
    (iblk m c 5 t : S512.Idx → EReal) (ix1 e) = m ((c : Thread nD τ).loc main_arg5) (ix1 e) := by
  rw [← V_main_arg5 m c]
  unfold iblk
  rw [View.read_apply]
  show V m c main_arg5 _ = V m c main_arg5 _
  obtain ⟨-, -, -, -, -, -, -, -, -, e9, -⟩ := grid_facts t
  refine congrArg _ (funext fun a => Fin.ext ?_)
  match a with
  | ⟨0, _⟩ => show win0_5.index t (0 : Fin 1) * 512 + 1 * e.val = e.val; omega

/-! ## What a point writes back -/

/-- Point t writes back block t of the feed-forward function of the arguments. -/
theorem flushed_eq (c : Dev nD) (t : Fin cfg0.N) :
    (dats m 0 c).flushed 6 t = ((cfg0.win 6).blk t).view.read (Elt Ideal) (target m c) := by
  rw [flushed6]
  unfold out0_6
  rw [View.canon_unit_zero zero3]
  simp only [View.ld_unit_zero (S := S8) zero1, View.ld_unit_zero (S := S1x1024x8) zero3, View.ld_unit_zero (S := S8x2048) zero2,
    View.ld_unit_zero (S := S2048) zero1, View.ld_unit_zero (S := S2048x512) zero2, View.ld_unit_zero (S := S512) zero1]
  obtain ⟨-, -, -, -, -, -, -, -, -, -, l0, l1, l2⟩ := grid_facts t
  funext j
  obtain ⟨u, r, e, rfl⟩ : ∃ (u : Fin 1) (r : Fin 1024) (e : Fin 512), j = ix3 u r e := ⟨j 0, j 1, j 2, eq_ix3 j⟩
  have hu : u.val = 0 := by omega
  have hr : r.val < 1024 := r.isLt
  -- the place of the array under (u, r, e) of the block
  have hplace : ((cfg0.win 6).blk t).view.emb (ix3 u r e)
      = ix3 (⟨win0_6.index t (0 : Fin 3), by omega⟩ : Fin 8) (⟨win0_6.index t (1 : Fin 3) * 1024 + r.val, by omega⟩ : Fin 2048) e :=
    funext fun a => Fin.ext (by
      match a with
      | ⟨0, _⟩ => show win0_6.index t (0 : Fin 3) * 1 + 1 * u.val = win0_6.index t (0 : Fin 3); omega
      | ⟨1, _⟩ => show win0_6.index t (1 : Fin 3) * 1024 + 1 * r.val = win0_6.index t (1 : Fin 3) * 1024 + r.val; omega
      | ⟨2, _⟩ => show win0_6.index t (2 : Fin 3) * 512 + 1 * e.val = e.val; omega)
  show k0_pay1 (F := Ideal) (iblk m c 1 t) (iblk m c 0 t) (iblk m c 2 t) (iblk m c 3 t) (iblk m c 4 t) (iblk m c 5 t) (ix3 u r e)
      = target m c (((cfg0.win 6).blk t).view.emb (ix3 u r e))
  rw [hplace]
  dsimp only [target]
  rw [result_apply]
  refine (Body.stored_apply _ _ _ _ _ _ u r e).trans ?_
  unfold output hidden feature
  simp only [tokens_apply m c t 0 r _ ⟨win0_6.index t (0 : Fin 3), by omega⟩ ⟨win0_6.index t (1 : Fin 3) * 1024 + r.val, by omega⟩ rfl rfl,
    angles_apply m c t, matrix1_apply m c t, bias1_apply m c t, matrix2_apply m c t, bias2_apply m c t]

/-! ## The array after the run -/

/-- A place of the result array is in point t's block when each coordinate is in the block's range on its axis. -/
theorem mem_block (t : Fin cfg0.N) (i : S8x2048x512.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v5).slice (win0_6.rect t)).set ↔ _
  rw [View.set_slice_whole, Rect.mem_set_unit]
  exact Iff.rfl

/-- The sixteen blocks cover the result array: place (b, s, e) is in the block of the point at (b, s / 1024). -/
theorem covered (i : S8x2048x512.Idx) : ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 512 := (i 2).isLt
  obtain ⟨t, ht⟩ := grid_onto ⟨(i 0).val, h0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 512 ≤ (i 2).val ∧ (i 2).val < win0_6.index t (2 : Fin 3) * 512 + 512; omega

/-- So the result array ends holding the feed-forward function of the arguments. -/
theorem final (c : Dev nD) : (dats m 0 c).arrAt 6 cfg0.N = target m c :=
  (dats m 0 c).arrAt_eq_of_cover 6 (target m c) (fun t _ => flushed_eq m c t) covered

/-- The kernel's run, read: the result at the feed-forward function of the arguments, the arguments unchanged. -/
theorem run : θ_run defs (onTc (τ := τ) (main (F := Ideal))) ⟨m, fun _ => 0, ρ⟩ fun r => ∀ c : Dev nD,
      r.2.mem ((c : Thread nD τ).loc main_v5) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.FeedForward.Kernel

end
-- ==== Proof.lean ====
/-
  A fused feed-forward layer on cosine features, against its plain reference, on the extended reals.

  Both programs take 8 × 2048 tokens of 512 coordinates, eight angles, a 2048 × 8 and a 512 × 2048 weight matrix and
  their biases, and return for every token
      ∑ f, max (∑ q, (cos x[q] · cos θ[q]) · W1[f, q] + b1[f], 0) · W2[e, f] + b2[e]        (e < 512)
  using only the token's first eight coordinates (Proof/FeedForward.lean).

  The reference computes it with whole-array operations: a slice, cosines, a broadcast product, two contractions
  against the rows of the weight matrices, two broadcast sums and a maximum with zero (Proof/ReferenceValue.lean, over
  the generated reading of its run one operation at a time).

  The kernel is handed the sliced input and the two matrices transposed, and runs one body over a grid of sixteen
  blocks of 1024 tokens; each point forms the features, takes the two matrix products into zero accumulators with the
  biases and the maximum between them, and writes its 1024 × 512 block of the result (Proof/KernelBody.lean for one
  point, Proof/KernelValue.lean for the blocks and their cover, over the generated frame run with the result array
  named). The narrowings to a 16-bit format before each product are the identity on the extended reals, a product into
  a zero accumulator is the plain sum over the contracted position (Proof/LibPlainDot.lean), and the transposes only say
  where an entry of a weight matrix is read from. So the two sides are the same sums of the same products in the same
  order: no law of arithmetic joins them, and the finiteness of the inputs is never used.

  The idealization rewrote nothing, so there is nothing to preserve; the three programs run, terminate and leave their
  arguments as they were by the generated frames and the reference's generated run.
-/
import proofs.«152407_j65481071399183_1_alg».proof.Defs
import proofs.«152407_j65481071399183_1_alg».proof.Proof.Gen.Kernel
import proofs.«152407_j65481071399183_1_alg».proof.Proof.Gen.Kernel.Skeleton
import proofs.«152407_j65481071399183_1_alg».proof.Proof.Gen.Kernel.Launch
import proofs.«152407_j65481071399183_1_alg».proof.Proof.Gen.Kernel.Points
import proofs.«152407_j65481071399183_1_alg».proof.Proof.Gen.Kernel.Frame
import proofs.«152407_j65481071399183_1_alg».proof.Proof.Gen.KernelIdeal
import proofs.«152407_j65481071399183_1_alg».proof.Proof.Gen.KernelIdeal.Skeleton
import proofs.«152407_j65481071399183_1_alg».proof.Proof.Gen.KernelIdeal.Launch
import proofs.«152407_j65481071399183_1_alg».proof.Proof.Gen.KernelIdeal.Points
import proofs.«152407_j65481071399183_1_alg».proof.Proof.Gen.KernelIdeal.Frame
import proofs.«152407_j65481071399183_1_alg».proof.Proof.Gen.ReferenceIdeal
import proofs.«152407_j65481071399183_1_alg».proof.Proof.Gen.Pre_finite_inputs
import proofs.«152407_j65481071399183_1_alg».proof.Proof.Gen.KernelIdeal.Value
import proofs.«152407_j65481071399183_1_alg».proof.Proof.Gen.ReferenceIdeal.Run
import proofs.«152407_j65481071399183_1_alg».proof.Proof.Gen.ReferenceIdeal.Read
import proofs.«152407_j65481071399183_1_alg».proof.Proof.ReferenceValue
import proofs.«152407_j65481071399183_1_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both result arrays end at the feed-forward function of those arguments. -/
theorem algebraic : Cert.algebraic_KernelIdeal_ReferenceIdeal := by
  intro m ρ m' ρ' _ hagree
  refine ⟨fun c => Cert.FeedForward.Kernel.target m c, Cert.FeedForward.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v14_eq _ _ _ _ _ _).trans (Cert.FeedForward.Reference.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
